-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 98
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000, .i32⟩
  | .hbm, ⟨11, _⟩ => ⟨S700000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S700000, .i32⟩
  | .hbm, ⟨23, _⟩ => ⟨S700000, .i1⟩
  | .hbm, ⟨24, _⟩ => ⟨S_, .i32⟩
  | .hbm, ⟨25, _⟩ => ⟨S700000, .i32⟩
  | .hbm, ⟨26, _⟩ => ⟨S700000, .i32⟩
  | .hbm, ⟨27, _⟩ => ⟨S700000, .i32⟩
  | .hbm, ⟨28, _⟩ => ⟨S700000x1, .i32⟩
  | .hbm, ⟨29, _⟩ => ⟨S700000, .f32⟩
  | .hbm, ⟨30, _⟩ => ⟨S_, .i32⟩
  | .hbm, ⟨31, _⟩ => ⟨S700000, .i32⟩
  | .hbm, ⟨32, _⟩ => ⟨S700000, .i1⟩
  | .hbm, ⟨33, _⟩ => ⟨S_, .i32⟩
  | .hbm, ⟨34, _⟩ => ⟨S700000, .i32⟩
  | .hbm, ⟨35, _⟩ => ⟨S700000, .i32⟩
  | .hbm, ⟨36, _⟩ => ⟨S700000, .i32⟩
  | .hbm, ⟨37, _⟩ => ⟨S700000x1, .i32⟩
  | .hbm, ⟨38, _⟩ => ⟨S700000, .f32⟩
  | .hbm, ⟨39, _⟩ => ⟨S700000, .f32⟩
  | .hbm, ⟨40, _⟩ => ⟨S700000x1, .f32⟩
  | .hbm, ⟨41, _⟩ => ⟨S_, .i32⟩
  | .hbm, ⟨42, _⟩ => ⟨S700000, .i32⟩
  | .hbm, ⟨43, _⟩ => ⟨S700000, .i1⟩
  | .hbm, ⟨44, _⟩ => ⟨S_, .i32⟩
  | .hbm, ⟨45, _⟩ => ⟨S700000, .i32⟩
  | .hbm, ⟨46, _⟩ => ⟨S700000, .i32⟩
  | .hbm, ⟨47, _⟩ => ⟨S700000, .i32⟩
  | .hbm, ⟨48, _⟩ => ⟨S700000x1, .i32⟩
  | .hbm, ⟨49, _⟩ => ⟨S700000x128, .f32⟩
  | .hbm, ⟨50, _⟩ => ⟨S700000x128, .f32⟩
  | .hbm, ⟨51, _⟩ => ⟨S700000x128, .f32⟩
  | .hbm, ⟨52, _⟩ => ⟨S_, .f32⟩
  | .hbm, ⟨53, _⟩ => ⟨S100000x128, .f32⟩
  | .hbm, ⟨54, _⟩ => ⟨S700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S700000, .i32⟩
  | .hbm, ⟨62, _⟩ => ⟨S700000, .i1⟩
  | .hbm, ⟨63, _⟩ => ⟨S_, .i32⟩
  | .hbm, ⟨64, _⟩ => ⟨S700000, .i32⟩
  | .hbm, ⟨65, _⟩ => ⟨S700000, .i32⟩
  | .hbm, ⟨66, _⟩ => ⟨S700000, .i32⟩
  | .hbm, ⟨67, _⟩ => ⟨S700000x1, .i32⟩
  | .hbm, ⟨68, _⟩ => ⟨S700000, .f32⟩
  | .hbm, ⟨69, _⟩ => ⟨S_, .i32⟩
  | .hbm, ⟨70, _⟩ => ⟨S700000, .i32⟩
  | .hbm, ⟨71, _⟩ => ⟨S700000, .i1⟩
  | .hbm, ⟨72, _⟩ => ⟨S_, .i32⟩
  | .hbm, ⟨73, _⟩ => ⟨S700000, .i32⟩
  | .hbm, ⟨74, _⟩ => ⟨S700000, .i32⟩
  | .hbm, ⟨75, _⟩ => ⟨S700000, .i32⟩
  | .hbm, ⟨76, _⟩ => ⟨S700000x1, .i32⟩
  | .hbm, ⟨77, _⟩ => ⟨S700000, .f32⟩
  | .hbm, ⟨78, _⟩ => ⟨S700000, .f32⟩
  | .hbm, ⟨79, _⟩ => ⟨S700000x1, .f32⟩
  | .hbm, ⟨80, _⟩ => ⟨S_, .i32⟩
  | .hbm, ⟨81, _⟩ => ⟨S700000, .i32⟩
  | .hbm, ⟨82, _⟩ => ⟨S700000, .i1⟩
  | .hbm, ⟨83, _⟩ => ⟨S_, .i32⟩
  | .hbm, ⟨84, _⟩ => ⟨S700000, .i32⟩
  | .hbm, ⟨85, _⟩ => ⟨S700000, .i32⟩
  | .hbm, ⟨86, _⟩ => ⟨S700000, .i32⟩
  | .hbm, ⟨87, _⟩ => ⟨S700000x1, .i32⟩
  | .hbm, ⟨88, _⟩ => ⟨S700000x128, .f32⟩
  | .hbm, ⟨89, _⟩ => ⟨S700000x128, .f32⟩
  | .hbm, ⟨90, _⟩ => ⟨S700000x128, .f32⟩
  | .hbm, ⟨91, _⟩ => ⟨S_, .f32⟩
  | .hbm, ⟨92, _⟩ => ⟨S100000x128, .f32⟩
  | .hbm, ⟨93, _⟩ => ⟨S700000x1, .i32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_11 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  scatter_S100000_S700000x1_S700000_n_0_0_1_wf : ScatterDims.WF S100000 S700000x1 S700000 [] [0] [0] 1
  dot_S5000x128_S128x128_S5000x128_1_0_0_1_n_n_wf : DotDims.WF S5000x128 S128x128 S5000x128 [1] [0] [0] [1] [] []
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S700000, .i32⟩
  | .hbm, ⟨23, _⟩ => ⟨S700000, .i1⟩
  | .hbm, ⟨24, _⟩ => ⟨S_, .i32⟩
  | .hbm, ⟨25, _⟩ => ⟨S700000, .i32⟩
  | .hbm, ⟨26, _⟩ => ⟨S700000, .i32⟩
  | .hbm, ⟨27, _⟩ => ⟨S700000, .i32⟩
  | .hbm, ⟨28, _⟩ => ⟨S700000x1, .i32⟩
  | .hbm, ⟨29, _⟩ => ⟨S700000, .f32⟩
  | .hbm, ⟨30, _⟩ => ⟨S_, .i32⟩
  | .hbm, ⟨31, _⟩ => ⟨S700000, .i32⟩
  | .hbm, ⟨32, _⟩ => ⟨S700000, .i1⟩
  | .hbm, ⟨33, _⟩ => ⟨S_, .i32⟩
  | .hbm, ⟨34, _⟩ => ⟨S700000, .i32⟩
  | .hbm, ⟨35, _⟩ => ⟨S700000, .i32⟩
  | .hbm, ⟨36, _⟩ => ⟨S700000, .i32⟩
  | .hbm, ⟨37, _⟩ => ⟨S700000x1, .i32⟩
  | .hbm, ⟨38, _⟩ => ⟨S700000, .f32⟩
  | .hbm, ⟨39, _⟩ => ⟨S700000, .f32⟩
  | .hbm, ⟨40, _⟩ => ⟨S700000x1, .f32⟩
  | .hbm, ⟨41, _⟩ => ⟨S_, .i32⟩
  | .hbm, ⟨42, _⟩ => ⟨S700000, .i32⟩
  | .hbm, ⟨43, _⟩ => ⟨S700000, .i1⟩
  | .hbm, ⟨44, _⟩ => ⟨S_, .i32⟩
  | .hbm, ⟨45, _⟩ => ⟨S700000, .i32⟩
  | .hbm, ⟨46, _⟩ => ⟨S700000, .i32⟩
  | .hbm, ⟨47, _⟩ => ⟨S700000, .i32⟩
  | .hbm, ⟨48, _⟩ => ⟨S700000x1, .i32⟩
  | .hbm, ⟨49, _⟩ => ⟨S700000x128, .f32⟩
  | .hbm, ⟨50, _⟩ => ⟨S700000x128, .f32⟩
  | .hbm, ⟨51, _⟩ => ⟨S700000x128, .f32⟩
  | .hbm, ⟨52, _⟩ => ⟨S_, .f32⟩
  | .hbm, ⟨53, _⟩ => ⟨S100000x128, .f32⟩
  | .hbm, ⟨54, _⟩ => ⟨S700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S700000, .i32⟩
  | .hbm, ⟨65, _⟩ => ⟨S700000, .i1⟩
  | .hbm, ⟨66, _⟩ => ⟨S_, .i32⟩
  | .hbm, ⟨67, _⟩ => ⟨S700000, .i32⟩
  | .hbm, ⟨68, _⟩ => ⟨S700000, .i32⟩
  | .hbm, ⟨69, _⟩ => ⟨S700000, .i32⟩
  | .hbm, ⟨70, _⟩ => ⟨S700000x1, .i32⟩
  | .hbm, ⟨71, _⟩ => ⟨S700000, .f32⟩
  | .hbm, ⟨72, _⟩ => ⟨S_, .i32⟩
  | .hbm, ⟨73, _⟩ => ⟨S700000, .i32⟩
  | .hbm, ⟨74, _⟩ => ⟨S700000, .i1⟩
  | .hbm, ⟨75, _⟩ => ⟨S_, .i32⟩
  | .hbm, ⟨76, _⟩ => ⟨S700000, .i32⟩
  | .hbm, ⟨77, _⟩ => ⟨S700000, .i32⟩
  | .hbm, ⟨78, _⟩ => ⟨S700000, .i32⟩
  | .hbm, ⟨79, _⟩ => ⟨S700000x1, .i32⟩
  | .hbm, ⟨80, _⟩ => ⟨S700000, .f32⟩
  | .hbm, ⟨81, _⟩ => ⟨S700000, .f32⟩
  | .hbm, ⟨82, _⟩ => ⟨S700000x1, .f32⟩
  | .hbm, ⟨83, _⟩ => ⟨S_, .i32⟩
  | .hbm, ⟨84, _⟩ => ⟨S700000, .i32⟩
  | .hbm, ⟨85, _⟩ => ⟨S700000, .i1⟩
  | .hbm, ⟨86, _⟩ => ⟨S_, .i32⟩
  | .hbm, ⟨87, _⟩ => ⟨S700000, .i32⟩
  | .hbm, ⟨88, _⟩ => ⟨S700000, .i32⟩
  | .hbm, ⟨89, _⟩ => ⟨S700000, .i32⟩
  | .hbm, ⟨90, _⟩ => ⟨S700000x1, .i32⟩
  | .hbm, ⟨91, _⟩ => ⟨S700000x128, .f32⟩
  | .hbm, ⟨92, _⟩ => ⟨S700000x128, .f32⟩
  | .hbm, ⟨93, _⟩ => ⟨S700000x128, .f32⟩
  | .hbm, ⟨94, _⟩ => ⟨S_, .f32⟩
  | .hbm, ⟨95, _⟩ => ⟨S100000x128, .f32⟩
  | .hbm, ⟨96, _⟩ => ⟨S700000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  dot_S100000x128_S128x128_S100000x128_1_0_0_1_n_n_wf : DotDims.WF S100000x128 S128x128 S100000x128 [1] [0] [0] [1] [] []
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Spec.lean ====
/-
  The arithmetic of one graph-convolution layer's dense part, as whole-array functions over the extended reals.

  A node-feature array `x` of 100000 rows and 128 columns times a 128-by-128 weight `w` has, at row `r` and
  column `n`, the entry `∑ k, x[r, k] · w[k, n]`. The second layer first takes the positive part of every entry.
  Both programs compute exactly these two functions (one tile of 5000 rows at a time, or all rows at once); every
  other operation of the two programs is shared.
-/
import Idealize.ShloMosaic.PureOps.Ideal.Laws
import Idealize.ShloMosaic.Lib.ValueIdx
import proofs.«144985_j60378650247357_1_alg».proof.Proof.LibMatmulAt

noncomputable section

open scoped BigOperators

namespace Cert.Spec

open Idealize.ShloMosaic Idealize.ShloMosaic.ValueIdx

/-- The node-feature arrays' shape. -/
abbrev SX : Shape := ⟨2, ![100000, 128]⟩
/-- The weights' shape. -/
abbrev SW : Shape := ⟨2, ![128, 128]⟩

/-- `x · w`, entry by entry. -/
def mmAll (x : FVec Ideal SX .f32) (w : FVec Ideal SW .f32) : FVec Ideal SX .f32 :=
  fun i => ∑ k : Fin 128, x (ix2 (i 0) k) * w (ix2 k (i 1))

/-- The positive part, entry by entry. -/
def reluAll (x : FVec Ideal SX .f32) : FVec Ideal SX .f32 := fun i => max (x i) 0

theorem mmAll_apply (x : FVec Ideal SX .f32) (w : FVec Ideal SW .f32) (r : Fin 100000) (n : Fin 128) :
    mmAll x w (ix2 r n) = ∑ k : Fin 128, x (ix2 r k) * w (ix2 k n) := rfl

theorem reluAll_apply (x : FVec Ideal SX .f32) (i : SX.Idx) : reluAll x i = max (x i) 0 := rfl

/-- The host's whole product, for dimension numbers that contract the left operand's columns against the right
    operand's rows with no batch axis, is `mmAll`. -/
theorem dotGeneral_eq_mmAll (D : DotDims SX SW SX) (hlc : D.lhsContracting = [1]) (hrc : D.rhsContracting = [0])
    (hlb : D.lhsBatch = []) (hrb : D.rhsBatch = []) (hln : D.lhsNonContracting = [0]) (hrn : D.rhsNonContracting = [1])
    (prec : Option ContractPrecision) (x : FVec Ideal SX .f32) (w : FVec Ideal SW .f32) :
    Host.dotGeneral D prec x w = mmAll x w := by
  funext i
  obtain ⟨r, n, rfl⟩ : ∃ (r : Fin 100000) (n : Fin 128), i = ix2 r n := ⟨i 0, i 1, eq_ix2 i⟩
  rw [mmAll_apply, ← Cert.LibMatmulAt.matmul_zero_at D hlc hrc hlb hrb hln hrn prec x w r n,
    Ideal.matmul_constant_zero_apply]
  exact Ideal.dotGeneral_apply D prec .single x w (ix2 r n)

end Cert.Spec

end
-- ==== Proof.RegionValue.lean ====
/-
  Each of the two tiled dense layers computes its whole-array function.

  A layer's grid has twenty tiles; tile `t` stages rows `5000 t … 5000 t + 4999` of the 100000-by-128 node-feature
  array and the whole 128-by-128 weight, and writes rows `5000 t …` of the result. On a tile the body forms the
  product of the staged rows (in the second layer, of their positive parts) with the weight into a zero accumulator,
  so entry `(o, n)` of tile `t` is `∑ k, x[5000 t + o, k] · w[k, n]`: the entry at `(5000 t + o, n)` of the whole-array
  product. The twenty row blocks cover the array, so the result array ends holding the whole-array product.
-/
import proofs.«144985_j60378650247357_1_alg».proof.Proof.Gen.KernelIdeal.Frame
import proofs.«144985_j60378650247357_1_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

open Idealize.ShloMosaic.ValueIdx
open scoped BigOperators

/-- The zero offsets of a whole-buffer access, as a constant function. -/
theorem hz : (![0, 0] : Fin 2 → Nat) = fun _ => 0 := funext fun a => by fin_cases a <;> rfl

/-- Row `o` of tile `t` is a row of the array. -/
theorem row_lt (t o : Nat) (ht : t < 20) (ho : o < 5000) : 5000 * t + o < 100000 := by omega

/-! ## Layer one: the plain product -/

/-- The tile's product at row `o` and column `n` of the tile: the sum over the 128 contracted positions. The format
    changes in front of the product are the identity on extended reals, and the accumulator is zero. -/
theorem pay0_at (x0 : Vec Ideal S5000x128 .f32) (x1 : Vec Ideal S128x128 .f32) (o : Fin 5000) (n : Fin 128) :
    k0_pay1 x0 x1 (ix2 o n) = ∑ k : Fin 128, x0 (ix2 o k) * x1 (ix2 k n) := by
  unfold k0_pay1
  exact Cert.LibMatmulAt.matmul_zero_at dot_S5000x128_S128x128_S5000x128_1_0_0_1_n_n rfl rfl rfl rfl rfl rfl none _ _ o n

/-- The block indices of the three windows at tile `t`: the row operand and the result are on row block `t`, column
    block 0; the weight is always block (0, 0). Decided over the twenty tiles. -/
theorem idx0 : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

/-- There are twenty tiles. -/
theorem pt_lt0 (t : Fin cfg0.N) : t.val < 20 := lt_of_lt_of_eq t.isLt N_0

/-- The row operand's tile `t` at row `x 0` is the array's row `5000 t + x 0`, the column kept. -/
theorem iblk0_0_at (c : Dev nD) (t : Fin cfg0.N) (x : S5000x128.Idx) (k : SX.Idx)
    (hk0 : (k 0).val = 5000 * t.val + (x 0).val) (hk1 : (k 1).val = (x 1).val) :
    (iblk0 V c 0 t : Vec Ideal S5000x128 .f32) x = (V c main_arg0 : SX.Idx → Elt Ideal .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's tile is the whole weight at every tile. -/
theorem iblk0_1_at (c : Dev nD) (t : Fin cfg0.N) (x : S128x128.Idx) :
    (iblk0 V c 1 t : Vec Ideal S128x128 .f32) x = (V c main_arg2 : SW.Idx → Elt Ideal .f32) x := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- Entry `(o, n)` of the result's tile `t` is entry `(5000 t + o, n)` of the result array. -/
theorem emb0_2 (t : Fin cfg0.N) (o : Fin 5000) (n : Fin 128) :
    ((cfg0.win 2).blk t).view.emb (ix2 o n)
      = (ix2 ⟨5000 * t.val + o.val, row_lt _ _ (pt_lt0 t) o.isLt⟩ n : SX.Idx) := by
  obtain ⟨-, -, -, -, e4, e5⟩ := idx0 t
  funext a
  apply Fin.ext
  match a with
  | ⟨0, _⟩ => show win0_2.index t 0 * 5000 + 1 * o.val = 5000 * t.val + o.val; rw [e4]; omega
  | ⟨1, _⟩ => show win0_2.index t 1 * 128 + 1 * n.val = n.val; rw [e5]; omega

/-- What tile `t` computes at an entry of its block is the whole-array function at that entry's place in the array:
    the same 128 products, the row operand read at row `5000 t + o`. -/
theorem blk0_entry (c : Dev nD) (t : Fin cfg0.N) (j : S5000x128.Idx) :
    k0_pay1 (iblk0 V c 0 t) (iblk0 V c 1 t) j
      = mmAll (V c main_arg0) (V c main_arg2) (((cfg0.win 2).blk t).view.emb j) := by
  obtain ⟨o, n, rfl⟩ : ∃ (o : Fin 5000) (n : Fin 128), j = ix2 o n := ⟨j 0, j 1, eq_ix2 j⟩
  rw [pay0_at, emb0_2, mmAll_apply]
  refine Finset.sum_congr rfl fun k _ => ?_
  exact congrArg₂ (· * ·) (iblk0_0_at V c t (ix2 o k) (ix2 _ k) rfl rfl) (iblk0_1_at V c t (ix2 k n))

/-- What tile `t` writes back is block `t` of the whole-array function: the body loads its whole staging buffers and
    stores the product over the whole output buffer. -/
theorem flushed0_eq (c : Dev nD) (t : Fin cfg0.N) :
    (dat0 (F := Ideal) V c).flushed 2 t
      = ((cfg0.win 2).blk t).view.read (Elt Ideal) (mmAll (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  exact blk0_entry V c t j

/-- An entry of the result array is in tile `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v12).slice (win0_2.rect t)).set ↔ _
  rw [View.set_slice_whole, Rect.mem_set_unit]
  exact Iff.rfl

/-- The twenty blocks of 5000 rows cover the 100000 rows: row `r` lies in the block of tile `r / 5000`, and every
    tile writes its block back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e4, e5⟩ := idx0 t
  refine ⟨t, flush0_2 t, ?_⟩
  rw [mem_blk0]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- THE FIRST LAYER'S RESULT ARRAY after its twenty tiles is the whole-array product. -/
theorem arr0 (c : Dev nD) :
    (dat0 (F := Ideal) V c).arrAt 2 cfg0.N = mmAll (V c main_arg0) (V c main_arg2) :=
  (dat0 V c).arrAt_eq_of_cover 2 (mmAll (V c main_arg0) (V c main_arg2)) (fun t _ => flushed0_eq V c t) cover0

/-! ## Layer two: the product of the positive part -/

/-- The tile's product at row `o` and column `n` of the tile: the sum over the 128 contracted positions, the left
    factor's entries replaced by their positive parts. The format
    changes in front of the product are the identity on extended reals, the cast to the same shape is the identity, the
    maximum with the splat of zero is the positive part, and the accumulator is zero. -/
theorem pay1_at (x0 : Vec Ideal S5000x128 .f32) (x1 : Vec Ideal S128x128 .f32) (o : Fin 5000) (n : Fin 128) :
    k1_pay1 x0 x1 (ix2 o n) = ∑ k : Fin 128, max (x0 (ix2 o k)) 0 * x1 (ix2 k n) := by
  unfold k1_pay1
  simp only [shapeCast_self]
  refine (Cert.LibMatmulAt.matmul_zero_at dot_S5000x128_S128x128_S5000x128_1_0_0_1_n_n rfl rfl rfl rfl rfl rfl none _ _ o n).trans ?_
  refine Finset.sum_congr rfl fun k _ => ?_
  show max (x0 (ix2 o k)) (Ideal.ofBits .f32 0x00000000#32) * x1 (ix2 k n) = _
  rw [Ideal.ofBits_zero_f32]

/-- The block indices of the three windows at tile `t`: the row operand and the result are on row block `t`, column
    block 0; the weight is always block (0, 0). Decided over the twenty tiles. -/
theorem idx1 : ∀ t : Fin cfg1.N, win1_0.index t 0 = t.val ∧ win1_0.index t 1 = 0 ∧ win1_1.index t 0 = 0
    ∧ win1_1.index t 1 = 0 ∧ win1_2.index t 0 = t.val ∧ win1_2.index t 1 = 0 :=
  (by decide +kernel : ∀ t : Fin grid1.N, _)

/-- There are twenty tiles. -/
theorem pt_lt1 (t : Fin cfg1.N) : t.val < 20 := lt_of_lt_of_eq t.isLt N_1

/-- The row operand's tile `t` at row `x 0` is the array's row `5000 t + x 0`, the column kept. -/
theorem iblk1_0_at (c : Dev nD) (t : Fin cfg1.N) (x : S5000x128.Idx) (k : SX.Idx)
    (hk0 : (k 0).val = 5000 * t.val + (x 0).val) (hk1 : (k 1).val = (x 1).val) :
    (iblk1 V c 0 t : Vec Ideal S5000x128 .f32) x = (V c main_v43 : SX.Idx → Elt Ideal .f32) k := by
  obtain ⟨e0, e1, -⟩ := idx1 t
  unfold iblk1
  rw [View.read_apply]
  show V c main_v43 _ = V c main_v43 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The weight's tile is the whole weight at every tile. -/
theorem iblk1_1_at (c : Dev nD) (t : Fin cfg1.N) (x : S128x128.Idx) :
    (iblk1 V c 1 t : Vec Ideal S128x128 .f32) x = (V c main_arg4 : SW.Idx → Elt Ideal .f32) x := by
  obtain ⟨-, -, e2, e3, -⟩ := idx1 t
  unfold iblk1
  rw [View.read_apply]
  show V c main_arg4 _ = V c main_arg4 _
  congr 1
  funext a
  apply Fin.ext
  match a with
  | ⟨0, _⟩ => show win1_1.index t 0 * 128 + 1 * (x 0).val = (x 0).val; rw [e2]; omega
  | ⟨1, _⟩ => show win1_1.index t 1 * 128 + 1 * (x 1).val = (x 1).val; rw [e3]; omega

/-- Entry `(o, n)` of the result's tile `t` is entry `(5000 t + o, n)` of the result array. -/
theorem emb1_2 (t : Fin cfg1.N) (o : Fin 5000) (n : Fin 128) :
    ((cfg1.win 2).blk t).view.emb (ix2 o n)
      = (ix2 ⟨5000 * t.val + o.val, row_lt _ _ (pt_lt1 t) o.isLt⟩ n : SX.Idx) := by
  obtain ⟨-, -, -, -, e4, e5⟩ := idx1 t
  funext a
  apply Fin.ext
  match a with
  | ⟨0, _⟩ => show win1_2.index t 0 * 5000 + 1 * o.val = 5000 * t.val + o.val; rw [e4]; omega
  | ⟨1, _⟩ => show win1_2.index t 1 * 128 + 1 * n.val = n.val; rw [e5]; omega

/-- What tile `t` computes at an entry of its block is the whole-array function at that entry's place in the array:
    the same 128 products, the row operand read at row `5000 t + o`. -/
theorem blk1_entry (c : Dev nD) (t : Fin cfg1.N) (j : S5000x128.Idx) :
    k1_pay1 (iblk1 V c 0 t) (iblk1 V c 1 t) j
      = mmAll (reluAll (V c main_v43)) (V c main_arg4) (((cfg1.win 2).blk t).view.emb j) := by
  obtain ⟨o, n, rfl⟩ : ∃ (o : Fin 5000) (n : Fin 128), j = ix2 o n := ⟨j 0, j 1, eq_ix2 j⟩
  rw [pay1_at, emb1_2, mmAll_apply]
  refine Finset.sum_congr rfl fun k _ => ?_
  rw [reluAll_apply]
  exact congrArg₂ (· * ·) (congrArg (fun z => max z 0) (iblk1_0_at V c t (ix2 o k) (ix2 _ k) rfl rfl))
    (iblk1_1_at V c t (ix2 k n))

/-- What tile `t` writes back is block `t` of the whole-array function: the body loads its whole staging buffers and
    stores the product over the whole output buffer. -/
theorem flushed1_eq (c : Dev nD) (t : Fin cfg1.N) :
    (dat1 (F := Ideal) V c).flushed 2 t
      = ((cfg1.win 2).blk t).view.read (Elt Ideal) (mmAll (reluAll (V c main_v43)) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  funext j
  exact blk1_entry V c t j

/-- An entry of the result array is in tile `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- The twenty blocks of 5000 rows cover the 100000 rows: row `r` lies in the block of tile `r / 5000`, and every
    tile writes its block back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, e4, e5⟩ := idx1 t
  refine ⟨t, flush1_2 t, ?_⟩
  rw [mem_blk1]
  intro a
  match a with
  | ⟨0, _⟩ =>
    show win1_2.index t 0 * 5000 ≤ (i 0).val ∧ (i 0).val < win1_2.index t 0 * 5000 + 5000
    rw [e4, ht]; omega
  | ⟨1, _⟩ =>
    show win1_2.index t 1 * 128 ≤ (i 1).val ∧ (i 1).val < win1_2.index t 1 * 128 + 128
    rw [e5]; omega

/-- THE SECOND LAYER'S RESULT ARRAY after its twenty tiles is the whole-array product of the positive part. -/
theorem arr1 (c : Dev nD) :
    (dat1 (F := Ideal) V c).arrAt 2 cfg1.N = mmAll (reluAll (V c main_v43)) (V c main_arg4) :=
  (dat1 V c).arrAt_eq_of_cover 2 (mmAll (reluAll (V c main_v43)) (V c main_arg4)) (fun t _ => flushed1_eq V c t) cover1

end Cert.KernelIdeal.RegionValue

end
-- ==== Proof.KernelValue.lean ====
/-
  The kernel program's result array as one term of its arguments.

  Between and after the two tiled products the program runs the same host operations as a plain graph convolution:
  from the edge list it builds the message edges (`srcOf`, `dstOf`) and the degree normalisation (`disOf`), and each layer
  aggregates its transformed features over them (`agg`). Read boundary by boundary, the buffers hold: after the first
  stretch the edges and the normalisation; after the first tiled product `x · W1`; after the second stretch layer one's
  output; after the second tiled product `relu(out1) · W2`; and at the end layer two's output (`layers`).
-/
import proofs.«144985_j60378650247357_1_alg».proof.Proof.Gen.KernelIdeal.Frame
import proofs.«144985_j60378650247357_1_alg».proof.Proof.RegionValue
import proofs.«144985_j60378650247357_1_alg».proof.Proof.Spec
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Cert.Spec

section Defs
variable {F : FTy → Type} [FloatOps F]

/-- The message edges' source nodes: the first row of the edge list, then every node once (its self loop). -/
def srcOf (e : (⟨S2x600000, .i32⟩ : BufTy).Contents (Elt F)) : (⟨S700000, .i32⟩ : BufTy).Contents (Elt F) :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The message edges' target nodes: the second row of the edge list, then every node once. -/
def dstOf (e : (⟨S2x600000, .i32⟩ : BufTy).Contents (Elt F)) : (⟨S700000, .i32⟩ : BufTy).Contents (Elt F) :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- Every node's in-degree over the message edges (a one scattered onto each edge's target), to the power -1/2. -/
def disOf (dst : (⟨S700000, .i32⟩ : BufTy).Contents (Elt F)) : (⟨S100000, .f32⟩ : BufTy).Contents (Elt F) :=
  Host.rsqrt (Host.scatterAdd scatter_S100000_S700000x1_S700000_n_0_0_1 (broadcastInDim S100000 ![] bcast_S_S100000 (constant S_ .f32 0x00000000#32)) (broadcastInDim S700000x1 ![0] bcast_S700000_S700000x1_0 dst) (broadcastInDim S700000 ![] bcast_S_S700000 (constant S_ .f32 0x3F800000#32)))

/-- One layer's aggregation of transformed features `h`: every edge carries its source's row of `h` scaled by the two
    end points' normalisations, the rows are summed at the edges' targets, and the bias is added to every row. (A
    negative node index is first moved up by the node count, as indexing does.) -/
def agg (h : (⟨S100000x128, .f32⟩ : BufTy).Contents (Elt F)) (src dst : (⟨S700000, .i32⟩ : BufTy).Contents (Elt F)) (dis : (⟨S100000, .f32⟩ : BufTy).Contents (Elt F)) (b : (⟨S128, .f32⟩ : BufTy).Contents (Elt F)) : (⟨S100000x128, .f32⟩ : BufTy).Contents (Elt F) :=
  addf (Host.scatterAdd scatter_S100000x128_S700000x1_S700000x128_1_0_0_1 (broadcastInDim S100000x128 ![] bcast_S_S100000x128 (constant S_ .f32 0x00000000#32)) (broadcastInDim S700000x1 ![0] bcast_S700000_S700000x1_0 dst) (mulf (Host.gather gather_S100000x128_S700000x1_S700000x128_1_0_n_n_0_1_1128 h (broadcastInDim S700000x1 ![0] bcast_S700000_S700000x1_0 (select (cmpi .slt src (broadcastInDim S700000 ![] bcast_S_S700000 (constantI S_ 32 0#32))) (addi src (broadcastInDim S700000 ![] bcast_S_S700000 (constantI S_ 32 100000#32))) src))) (broadcastInDim S700000x128 ![0, 1] bcast_S700000x1_S700000x128_0_1 (broadcastInDim S700000x1 ![0] bcast_S700000_S700000x1_0 (mulf (Host.gather gather_S100000_S700000x1_S700000_n_0_n_n_0_1_1 dis (broadcastInDim S700000x1 ![0] bcast_S700000_S700000x1_0 (select (cmpi .slt src (broadcastInDim S700000 ![] bcast_S_S700000 (constantI S_ 32 0#32))) (addi src (broadcastInDim S700000 ![] bcast_S_S700000 (constantI S_ 32 100000#32))) src))) (Host.gather gather_S100000_S700000x1_S700000_n_0_n_n_0_1_1 dis (broadcastInDim S700000x1 ![0] bcast_S700000_S700000x1_0 (select (cmpi .slt dst (broadcastInDim S700000 ![] bcast_S_S700000 (constantI S_ 32 0#32))) (addi dst (broadcastInDim S700000 ![] bcast_S_S700000 (constantI S_ 32 100000#32))) dst)))))))) (broadcastInDim S100000x128 ![0, 1] bcast_S1x128_S100000x128_0_1 (broadcastInDim S1x128 ![1] bcast_S128_S1x128_1 b))

end Defs

/-- The whole program as a function of its six arguments: two layers, the positive part between. -/
def layers (x : FVec Ideal S100000x128 .f32) (e : (⟨S2x600000, .i32⟩ : BufTy).Contents (Elt Ideal))
    (w1 : FVec Ideal S128x128 .f32) (b1 : FVec Ideal S128 .f32) (w2 : FVec Ideal S128x128 .f32) (b2 : FVec Ideal S128 .f32) :
    FVec Ideal S100000x128 .f32 :=
  agg (mmAll (reluAll (agg (mmAll x w1) (srcOf e) (dstOf e) (disOf (dstOf e)) b1)) w2) (srcOf e) (dstOf e) (disOf (dstOf e)) b2

variable (m : (ℓ : Loc nD τ sig) → Buf (Elt Ideal) ℓ) (ρ : Dev nD → PrngReg)

/-! ## After the first stretch of host operations: the message edges and the normalisation; the arguments untouched -/

theorem W1_src (c : Dev nD) : W1 m ρ c (Proc.devRef .tc main_v5) = srcOf (m ((c : Thread nD τ).loc main_arg1)) := by
  show StableHlo.after hostOps0 (W0 m ρ c) (Proc.devRef .tc main_v5) = _
  after_results <;> (unfold srcOf; rfl)

theorem W1_dst (c : Dev nD) : W1 m ρ c (Proc.devRef .tc main_v6) = dstOf (m ((c : Thread nD τ).loc main_arg1)) := by
  show StableHlo.after hostOps0 (W0 m ρ c) (Proc.devRef .tc main_v6) = _
  after_results <;> (unfold dstOf; rfl)

theorem W1_dis (c : Dev nD) : W1 m ρ c (Proc.devRef .tc main_v11) = disOf (dstOf (m ((c : Thread nD τ).loc main_arg1))) := by
  show StableHlo.after hostOps0 (W0 m ρ c) (Proc.devRef .tc main_v11) = _
  after_results <;> (unfold disOf dstOf; rfl)

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

/-! ## After the first tiled product -/

/-- The first region leaves `x · W1` in its result array. -/
theorem W2_h1 (c : Dev nD) :
    W2 m ρ c (Proc.devRef .tc main_v12) = mmAll (m ((c : Thread nD τ).loc main_arg0)) (m ((c : Thread nD τ).loc main_arg2)) := by
  refine (W2_arr m ρ c 2).trans ((Cert.KernelIdeal.RegionValue.arr0 (V1 m ρ) c).trans ?_)
  show mmAll (W1 m ρ c (Proc.devRef .tc main_arg0)) (W1 m ρ c (Proc.devRef .tc main_arg2)) = _
  rw [W1_arg0, W1_arg2]

/-- A buffer that is none of the first region's three arrays holds what it held when the region was entered. -/
theorem W2_kept (c : Dev nD) (b : Ref sig .tc) (hb : ∀ w, Pipeline.arrRef spec0 w ≠ b) :
    W2 m ρ c (Proc.devRef .tc b) = W1 m ρ c (Proc.devRef .tc b) := W2_of_ne m ρ c b hb

/-! ## After the second stretch: layer one's output; the second stretch writes none of the buffers read later -/

set_option maxHeartbeats 4000000 in
theorem W3_out1 (c : Dev nD) : W3 m ρ c (Proc.devRef .tc main_v43)
    = agg (W2 m ρ c (Proc.devRef .tc main_v12)) (W2 m ρ c (Proc.devRef .tc main_v5)) (W2 m ρ c (Proc.devRef .tc main_v6))
        (W2 m ρ c (Proc.devRef .tc main_v11)) (W2 m ρ c (Proc.devRef .tc main_arg3)) := by
  show StableHlo.after hostOps1 (W2 m ρ c) (Proc.devRef .tc main_v43) = _
  generalize W2 m ρ c = W
  after_results_simp <;> (unfold agg; rfl)

set_option maxHeartbeats 4000000 in
theorem W3_src (c : Dev nD) : W3 m ρ c (Proc.devRef .tc main_v5) = W2 m ρ c (Proc.devRef .tc main_v5) := by
  show StableHlo.after hostOps1 (W2 m ρ c) (Proc.devRef .tc main_v5) = _
  generalize W2 m ρ c = W
  after_results_simp <;> rfl

set_option maxHeartbeats 4000000 in
theorem W3_dst (c : Dev nD) : W3 m ρ c (Proc.devRef .tc main_v6) = W2 m ρ c (Proc.devRef .tc main_v6) := by
  show StableHlo.after hostOps1 (W2 m ρ c) (Proc.devRef .tc main_v6) = _
  generalize W2 m ρ c = W
  after_results_simp <;> rfl

set_option maxHeartbeats 4000000 in
theorem W3_dis (c : Dev nD) : W3 m ρ c (Proc.devRef .tc main_v11) = W2 m ρ c (Proc.devRef .tc main_v11) := by
  show StableHlo.after hostOps1 (W2 m ρ c) (Proc.devRef .tc main_v11) = _
  generalize W2 m ρ c = W
  after_results_simp <;> rfl

set_option maxHeartbeats 4000000 in
theorem W3_arg4 (c : Dev nD) : W3 m ρ c (Proc.devRef .tc main_arg4) = W2 m ρ c (Proc.devRef .tc main_arg4) := by
  show StableHlo.after hostOps1 (W2 m ρ c) (Proc.devRef .tc main_arg4) = _
  generalize W2 m ρ c = W
  after_results_simp <;> rfl

set_option maxHeartbeats 4000000 in
theorem W3_arg5 (c : Dev nD) : W3 m ρ c (Proc.devRef .tc main_arg5) = W2 m ρ c (Proc.devRef .tc main_arg5) := by
  show StableHlo.after hostOps1 (W2 m ρ c) (Proc.devRef .tc main_arg5) = _
  generalize W2 m ρ c = W
  after_results_simp <;> rfl

/-! ## After the second tiled product -/

/-- The second region leaves `relu(out1) · W2` in its result array. -/
theorem W4_h2 (c : Dev nD) : W4 m ρ c (Proc.devRef .tc main_v44)
    = mmAll (reluAll (W3 m ρ c (Proc.devRef .tc main_v43))) (W3 m ρ c (Proc.devRef .tc main_arg4)) :=
  (W4_arr m ρ c 2).trans (Cert.KernelIdeal.RegionValue.arr1 (V3 m ρ) c)

/-- A buffer that is none of the second region's three arrays holds what it held when the region was entered. -/
theorem W4_kept (c : Dev nD) (b : Ref sig .tc) (hb : ∀ w, Pipeline.arrRef spec1 w ≠ b) :
    W4 m ρ c (Proc.devRef .tc b) = W3 m ρ c (Proc.devRef .tc b) := W4_of_ne m ρ c b hb

/-! ## At the end: layer two's output -/

set_option maxHeartbeats 4000000 in
theorem W5_out2 (c : Dev nD) : W5 m ρ c (Proc.devRef .tc main_v75)
    = agg (W4 m ρ c (Proc.devRef .tc main_v44)) (W4 m ρ c (Proc.devRef .tc main_v5)) (W4 m ρ c (Proc.devRef .tc main_v6))
        (W4 m ρ c (Proc.devRef .tc main_v11)) (W4 m ρ c (Proc.devRef .tc main_arg5)) := by
  show StableHlo.after hostOps2 (W4 m ρ c) (Proc.devRef .tc main_v75) = _
  generalize W4 m ρ c = W
  after_results_simp <;> (unfold agg; rfl)

/-- The message edges' sources, read at any later boundary, are still the first stretch's. -/
theorem src_at (c : Dev nD) : W4 m ρ c (Proc.devRef .tc main_v5) = srcOf (m ((c : Thread nD τ).loc main_arg1))
    ∧ W2 m ρ c (Proc.devRef .tc main_v5) = srcOf (m ((c : Thread nD τ).loc main_arg1)) := by
  have h2 : W2 m ρ c (Proc.devRef .tc main_v5) = srcOf (m ((c : Thread nD τ).loc main_arg1)) :=
    (W2_kept m ρ c main_v5 (by decide)).trans (W1_src m ρ c)
  exact ⟨(W4_kept m ρ c main_v5 (by decide)).trans ((W3_src m ρ c).trans h2), h2⟩

/-- The message edges' targets likewise. -/
theorem dst_at (c : Dev nD) : W4 m ρ c (Proc.devRef .tc main_v6) = dstOf (m ((c : Thread nD τ).loc main_arg1))
    ∧ W2 m ρ c (Proc.devRef .tc main_v6) = dstOf (m ((c : Thread nD τ).loc main_arg1)) := by
  have h2 : W2 m ρ c (Proc.devRef .tc main_v6) = dstOf (m ((c : Thread nD τ).loc main_arg1)) :=
    (W2_kept m ρ c main_v6 (by decide)).trans (W1_dst m ρ c)
  exact ⟨(W4_kept m ρ c main_v6 (by decide)).trans ((W3_dst m ρ c).trans h2), h2⟩

/-- The normalisation likewise. -/
theorem dis_at (c : Dev nD) : W4 m ρ c (Proc.devRef .tc main_v11) = disOf (dstOf (m ((c : Thread nD τ).loc main_arg1)))
    ∧ W2 m ρ c (Proc.devRef .tc main_v11) = disOf (dstOf (m ((c : Thread nD τ).loc main_arg1))) := by
  have h2 : W2 m ρ c (Proc.devRef .tc main_v11) = disOf (dstOf (m ((c : Thread nD τ).loc main_arg1))) :=
    (W2_kept m ρ c main_v11 (by decide)).trans (W1_dis m ρ c)
  exact ⟨(W4_kept m ρ c main_v11 (by decide)).trans ((W3_dis m ρ c).trans h2), h2⟩

/-- The first bias, the second weight and the second bias reach their readers as launched. -/
theorem b1_at (c : Dev nD) : W2 m ρ c (Proc.devRef .tc main_arg3) = m ((c : Thread nD τ).loc main_arg3) :=
  (W2_kept m ρ c main_arg3 (by decide)).trans (W1_arg3 m ρ c)

theorem w2_at (c : Dev nD) : W3 m ρ c (Proc.devRef .tc main_arg4) = m ((c : Thread nD τ).loc main_arg4) :=
  (W3_arg4 m ρ c).trans ((W2_kept m ρ c main_arg4 (by decide)).trans (W1_arg4 m ρ c))

theorem b2_at (c : Dev nD) : W4 m ρ c (Proc.devRef .tc main_arg5) = m ((c : Thread nD τ).loc main_arg5) :=
  (W4_kept m ρ c main_arg5 (by decide)).trans ((W3_arg5 m ρ c).trans ((W2_kept m ρ c main_arg5 (by decide)).trans (W1_arg5 m ρ c)))

/-- THE RESULT: the program's result array is `layers` of its arguments. -/
theorem result_eq (c : Dev nD) : W5 m ρ c (Proc.devRef .tc main_v75)
    = layers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold layers
  rw [W5_out2, W4_h2, W3_out1, W2_h1, (src_at m ρ c).1, (src_at m ρ c).2, (dst_at m ρ c).1, (dst_at m ρ c).2,
    (dis_at m ρ c).1, (dis_at m ρ c).2, b1_at, w2_at, b2_at]

end Cert.KernelIdeal.HostValue

end
-- ==== Proof.RefValue.lean ====
/-
  The reference program's result as one term of its arguments, in the vocabulary of one layer.

  The reference is a plain two-layer graph convolution on the host: from the edge list it builds the message edges
  (`srcOf`, `dstOf`: the listed edges and one self loop per node) and the symmetric degree normalisation (`disOf`); each
  layer multiplies the node features by its weight and aggregates over the edges (`agg`); between the layers it takes
  the positive part. Its whole products are `mmAll` and its positive part is `reluAll` of the specification.
-/
import proofs.«144985_j60378650247357_1_alg».proof.Proof.Gen.ReferenceIdeal.Run
import proofs.«144985_j60378650247357_1_alg».proof.Proof.Spec
import Idealize.ShloMosaic.PureOps.Ideal

set_option maxRecDepth 16384

noncomputable section

namespace Cert.ReferenceIdeal.HostValue

open Cert.ReferenceIdeal Cert.ReferenceIdeal.Gen Idealize.ShloMosaic Idealize.ShloMosaic.TcCoe Idealize.SL.Sem
open Cert.Spec

section Defs
variable {F : FTy → Type} [FloatOps F]

/-- The message edges' source nodes: the first row of the edge list, then every node once (its self loop). -/
def srcOf (e : (⟨S2x600000, .i32⟩ : BufTy).Contents (Elt F)) : (⟨S700000, .i32⟩ : BufTy).Contents (Elt F) :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The message edges' target nodes: the second row of the edge list, then every node once. -/
def dstOf (e : (⟨S2x600000, .i32⟩ : BufTy).Contents (Elt F)) : (⟨S700000, .i32⟩ : BufTy).Contents (Elt F) :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- Every node's in-degree over the message edges (a one scattered onto each edge's target), to the power -1/2. -/
def disOf (dst : (⟨S700000, .i32⟩ : BufTy).Contents (Elt F)) : (⟨S100000, .f32⟩ : BufTy).Contents (Elt F) :=
  Host.rsqrt (Host.scatterAdd scatter_S100000_S700000x1_S700000_n_0_0_1 (broadcastInDim S100000 ![] bcast_S_S100000 (constant S_ .f32 0x00000000#32)) (broadcastInDim S700000x1 ![0] bcast_S700000_S700000x1_0 dst) (broadcastInDim S700000 ![] bcast_S_S700000 (constant S_ .f32 0x3F800000#32)))

/-- One layer's aggregation of transformed features `h`: every edge carries its source's row of `h` scaled by the two
    end points' normalisations, the rows are summed at the edges' targets, and the bias is added to every row. (A
    negative node index is first moved up by the node count, as indexing does.) -/
def agg (h : (⟨S100000x128, .f32⟩ : BufTy).Contents (Elt F)) (src dst : (⟨S700000, .i32⟩ : BufTy).Contents (Elt F)) (dis : (⟨S100000, .f32⟩ : BufTy).Contents (Elt F)) (b : (⟨S128, .f32⟩ : BufTy).Contents (Elt F)) : (⟨S100000x128, .f32⟩ : BufTy).Contents (Elt F) :=
  addf (Host.scatterAdd scatter_S100000x128_S700000x1_S700000x128_1_0_0_1 (broadcastInDim S100000x128 ![] bcast_S_S100000x128 (constant S_ .f32 0x00000000#32)) (broadcastInDim S700000x1 ![0] bcast_S700000_S700000x1_0 dst) (mulf (Host.gather gather_S100000x128_S700000x1_S700000x128_1_0_n_n_0_1_1128 h (broadcastInDim S700000x1 ![0] bcast_S700000_S700000x1_0 (select (cmpi .slt src (broadcastInDim S700000 ![] bcast_S_S700000 (constantI S_ 32 0#32))) (addi src (broadcastInDim S700000 ![] bcast_S_S700000 (constantI S_ 32 100000#32))) src))) (broadcastInDim S700000x128 ![0, 1] bcast_S700000x1_S700000x128_0_1 (broadcastInDim S700000x1 ![0] bcast_S700000_S700000x1_0 (mulf (Host.gather gather_S100000_S700000x1_S700000_n_0_n_n_0_1_1 dis (broadcastInDim S700000x1 ![0] bcast_S700000_S700000x1_0 (select (cmpi .slt src (broadcastInDim S700000 ![] bcast_S_S700000 (constantI S_ 32 0#32))) (addi src (broadcastInDim S700000 ![] bcast_S_S700000 (constantI S_ 32 100000#32))) src))) (Host.gather gather_S100000_S700000x1_S700000_n_0_n_n_0_1_1 dis (broadcastInDim S700000x1 ![0] bcast_S700000_S700000x1_0 (select (cmpi .slt dst (broadcastInDim S700000 ![] bcast_S_S700000 (constantI S_ 32 0#32))) (addi dst (broadcastInDim S700000 ![] bcast_S_S700000 (constantI S_ 32 100000#32))) dst)))))))) (broadcastInDim S100000x128 ![0, 1] bcast_S1x128_S100000x128_0_1 (broadcastInDim S1x128 ![1] bcast_S128_S1x128_1 b))

end Defs

/-- The whole program as a function of its six arguments: two layers, the positive part between. -/
def layers (x : FVec Ideal S100000x128 .f32) (e : (⟨S2x600000, .i32⟩ : BufTy).Contents (Elt Ideal))
    (w1 : FVec Ideal S128x128 .f32) (b1 : FVec Ideal S128 .f32) (w2 : FVec Ideal S128x128 .f32) (b2 : FVec Ideal S128 .f32) :
    FVec Ideal S100000x128 .f32 :=
  agg (mmAll (reluAll (agg (mmAll x w1) (srcOf e) (dstOf e) (disOf (dstOf e)) b1)) w2) (srcOf e) (dstOf e) (disOf (dstOf e)) b2

/-- Against the zero splat, the larger of the two is the positive part. -/
theorem relu_eq (x : FVec Ideal S100000x128 .f32) :
    maximumf x (broadcastInDim S100000x128 ![] bcast_S_S100000x128 (constant S_ .f32 0x00000000#32)) = reluAll x := by
  funext i
  show max (x i) (Ideal.ofBits .f32 0x00000000#32) = max (x i) 0
  rw [Ideal.ofBits_zero_f32]

variable (m : (ℓ : Loc nD τ sig) → Buf (Elt Ideal) ℓ)

/-- The run's result term is two layers, one after the other. -/
theorem res_layers (c : Dev nD) :
    Value.res_main_v76 (F := Ideal) m c
      = agg (Host.dotGeneral (φ₁ := .f32) (φ₂ := .f32) dot_S100000x128_S128x128_S100000x128_1_0_0_1_n_n none
          (maximumf (agg (Host.dotGeneral (φ₁ := .f32) (φ₂ := .f32) dot_S100000x128_S128x128_S100000x128_1_0_0_1_n_n none (m ((c : Thread nD τ).loc main_arg0)) (m ((c : Thread nD τ).loc main_arg2)))
              (srcOf (m ((c : Thread nD τ).loc main_arg1))) (dstOf (m ((c : Thread nD τ).loc main_arg1))) (disOf (dstOf (m ((c : Thread nD τ).loc main_arg1)))) (m ((c : Thread nD τ).loc main_arg3)))
            (broadcastInDim S100000x128 ![] bcast_S_S100000x128 (constant S_ .f32 0x00000000#32)))
          (m ((c : Thread nD τ).loc main_arg4)))
        (srcOf (m ((c : Thread nD τ).loc main_arg1))) (dstOf (m ((c : Thread nD τ).loc main_arg1))) (disOf (dstOf (m ((c : Thread nD τ).loc main_arg1)))) (m ((c : Thread nD τ).loc main_arg5)) := by
  unfold Value.res_main_v76 agg disOf srcOf dstOf
  rfl

/-- THE RESULT: the reference's result is `layers` of its arguments — its whole products are the specification's product and
    its positive part the specification's. -/
theorem res_eq (c : Dev nD) :
    Value.res_main_v76 (F := Ideal) m c
      = layers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold layers
  rw [res_layers, dotGeneral_eq_mmAll dot_S100000x128_S128x128_S100000x128_1_0_0_1_n_n rfl rfl rfl rfl rfl rfl none, relu_eq,
    dotGeneral_eq_mmAll dot_S100000x128_S128x128_S100000x128_1_0_0_1_n_n rfl rfl rfl rfl rfl rfl none]

end Cert.ReferenceIdeal.HostValue

end
-- ==== Proof.lean ====
/-
  Two stacked graph-convolution layers whose dense products run as tiled kernels, against the same two layers written
  plainly on the host: the five claims.

  Both programs take node features `x` (100000 by 128), an edge list, and two weights and biases. Both add a self loop
  to every node, normalise by the in-degrees' inverse square roots, and compute, per layer, `aggregate(h) + b` with
  `h = x · W1` in the first layer and `h = relu(out1) · W2` in the second. They differ only in how `h` is formed: one
  whole product on the host, or twenty tiles of 5000 rows each multiplied by the whole weight. A tile of a product is
  the product's rows, so over the extended reals both results are the one function `layers` of the arguments
  (Proof/KernelValue.lean for the tiled program, Proof/RefValue.lean for the plain one); the two modules spell
  `layers` over their own program's dimension records, which are the same numbers (`layers_eq`).

  The frames are the generated ones (the plain program's is its generated run with the result dropped); the idealised
  kernel program is the kernel program's own text read over the extended reals, so `preserves` asks nothing.
-/
import proofs.«144985_j60378650247357_1_alg».proof.Defs
import proofs.«144985_j60378650247357_1_alg».proof.Proof.Gen.Kernel
import proofs.«144985_j60378650247357_1_alg».proof.Proof.Gen.Kernel.Frame
import proofs.«144985_j60378650247357_1_alg».proof.Proof.Gen.KernelIdeal
import proofs.«144985_j60378650247357_1_alg».proof.Proof.Gen.KernelIdeal.Frame
import proofs.«144985_j60378650247357_1_alg».proof.Proof.Gen.ReferenceIdeal
import proofs.«144985_j60378650247357_1_alg».proof.Proof.Gen.ReferenceIdeal.Run
import proofs.«144985_j60378650247357_1_alg».proof.Proof.Gen.Pre_finite_inputs
import proofs.«144985_j60378650247357_1_alg».proof.Proof.KernelRun
import proofs.«144985_j60378650247357_1_alg».proof.Proof.KernelValue
import proofs.«144985_j60378650247357_1_alg».proof.Proof.RefValue
import Idealize.ShloMosaic.Adequacy
import Idealize.ShloMosaic.Init

noncomputable section

namespace Cert.Proof

open Idealize.ShloMosaic Idealize.ShloMosaic.TcCoe Idealize.SL.Sem

/-- The tiled program's and the plain program's `layers` are one function: the same operations over the same
    dimension numbers, each program's records holding the same lists. -/
theorem layers_eq : Cert.KernelIdeal.HostValue.layers = Cert.ReferenceIdeal.HostValue.layers := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with their result arrays at `layers` of those
    arguments. -/
theorem algebraic : Cert.algebraic_KernelIdeal_ReferenceIdeal := by
  intro m ρ m' ρ' _ hagree
  refine ⟨fun c => Cert.KernelIdeal.Gen.W5 m ρ c (Proc.devRef .tc Cert.KernelIdeal.main_v75),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  show _ = Cert.KernelIdeal.Gen.W5 m ρ c (Proc.devRef .tc Cert.KernelIdeal.main_v75)
  rw [Cert.ReferenceIdeal.HostValue.res_eq, Cert.KernelIdeal.HostValue.result_eq, layers_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
